-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  main_v23

def fn {F : FTy → Type} [FloatOps F] (main_arg0 : FVec F S16384x4096 .f32) (main_arg1 : FVec F S64x4096 .f32) (main_arg2 : FVec F S64x64 .f32) (main_arg3 : FVec F S1x64 .f32) (main_arg4 : FVec F S1x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S4096x64 : Shape := ⟨2, ![4096, 64]⟩
abbrev S16384x1 : Shape := ⟨2, ![16384, 1]⟩
abbrev S1024x4096 : Shape := ⟨2, ![1024, 4096]⟩
abbrev S1024x1 : Shape := ⟨2, ![1024, 1]⟩
abbrev S1024x64 : Shape := ⟨2, ![1024, 64]⟩
abbrev S1024 : Shape := ⟨1, ![1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64x64, .f32⟩
  | .hbm, ⟨3, _⟩ => ⟨S1x64, .f32⟩
  | .hbm, ⟨4, _⟩ => ⟨S1x4096, .f32⟩
  | .hbm, ⟨5, _⟩ => ⟨S4096x64, .f32⟩
  | .hbm, ⟨6, _⟩ => ⟨S4096x64, .bf16⟩
  | .hbm, ⟨7, _⟩ => ⟨S64x64, .f32⟩
  | .hbm, ⟨8, _⟩ => ⟨S64x64, .bf16⟩
  | .hbm, ⟨9, _⟩ => ⟨S16384x1, .f32⟩
  | .local _ .vmem, ⟨0, _⟩ => ⟨S1024x4096, .f32⟩
  | .local _ .vmem, ⟨1, _⟩ => ⟨S1024x4096, .f32⟩
  | .local _ .vmem, ⟨2, _⟩ => ⟨S4096x64, .bf16⟩
  | .local _ .vmem, ⟨3, _⟩ => ⟨S64x64, .bf16⟩
  | .local _ .vmem, ⟨4, _⟩ => ⟨S1x64, .f32⟩
  | .local _ .vmem, ⟨5, _⟩ => ⟨S1x4096, .f32⟩
  | .local _ .vmem, ⟨6, _⟩ => ⟨S1024x1, .f32⟩
  | .local _ .vmem, ⟨7, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x4096_S4096x64_1_0 : S64x4096.Transposes [1, 0] S4096x64
  bitsLt_bf16_f32 : FTy.bits .bf16 < FTy.bits .f32
  transposes_S64x64_S64x64_1_0 : S64x64.Transposes [1, 0] S64x64
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  reduces_S1024x64_S1024 : S1024x64.Reduces [1] S1024
  shapeCasts_S1024_S1024x1 : S1024.ShapeCasts S1024x1
  inb_S1x4096_S1x4096_0_0 : ∀ a, (![0, 0] : Fin 2 → Nat) a + S1x4096.size a ≤ S1x4096.size a
  h_S1x4096 : 0 < S1x4096.numel
  broadcasts_S1x4096_S1024x4096 : S1x4096.Broadcasts S1024x4096
  reduces_S1024x4096_S1024 : S1024x4096.Reduces [1] S1024
  inb_S1024x1_S1024x1_0_0 : ∀ a, (![0, 0] : Fin 2 → Nat) a + S1024x1.size a ≤ S1024x1.size a
  h_S1024x1 : 0 < S1024x1.numel
  dot_S1024x4096_S4096x64_S1024x64_1_0_0_1_n_n_wf : DotDims.WF S1024x4096 S4096x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64x64, .f32⟩
  | .hbm, ⟨3, _⟩ => ⟨S1x64, .f32⟩
  | .hbm, ⟨4, _⟩ => ⟨S1x4096, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .i1⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S16384x4096_S16384_d1 : S16384x4096.ReducesTo [1] S16384
  bcast_S_S16384x1 : S_.BroadcastsInDim S16384x1 (![] : Fin 0 → Fin S16384x1.rank)
  dot_S16384x4096_S64x4096_S16384x64_1_1_0_0_n_n_wf : DotDims.WF S16384x4096 S64x4096 S16384x64 [1] [1] [0] [0] [] []
  dot_S16384x64_S64x64_S16384x64_1_1_0_0_n_n_wf : DotDims.WF S16384x64 S64x64 S16384x64 [1] [1] [0] [0] [] []
  dot_S16384x4096_S1x4096_S16384x1_1_1_0_0_n_n_wf : DotDims.WF S16384x4096 S1x4096 S16384x1 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def dot_S16384x64_S64x64_S16384x64_1_1_0_0_n_n : DotDims S16384x64 S64x64 S16384x64 where
  lhsContracting := [1]
  rhsContracting := [1]
  lhsNonContracting := [0]
  rhsNonContracting := [0]
  lhsBatch := []
  rhsBatch := []
  wf := dot_S16384x64_S64x64_S16384x64_1_1_0_0_n_n_wf
def dot_S16384x4096_S1x4096_S16384x1_1_1_0_0_n_n : DotDims S16384x4096 S1x4096 S16384x1 where
  lhsContracting := [1]
  rhsContracting := [1]
  lhsNonContracting := [0]
  rhsNonContracting := [0]
  lhsBatch := []
  rhsBatch := []
  wf := dot_S16384x4096_S1x4096_S16384x1_1_1_0_0_n_n_wf

class Facts : Prop extends Facts₀ where

variable [Facts]
-- ==== Proof.Spec.lean ====
/-
  What both programs compute, as one function of the argument arrays, on the extended reals.

  For a row `xr` of `x` (4096 entries), with `V : 64 × 4096`, `W : 64 × 64`, a bias row `c` (64
  entries) and a row `b` (4096 entries):
      s k   = ∑ d, xr d * V k d                       the first layer's pre-activation,
      g k   = logistic (s k) = 1 / (1 + e^(-s k)),
      u n   = (∑ k, g k * W n k) + c n                 the second layer's pre-activation,
      y     = (∑ n, softplus (u n)) + (∑ d, xr d * b d) - (∑ d, xr d * xr d) * (1/2),
      out   = e^y.
  `softplus u = max u 0 + log1p (e^(-|u|))`, with `|u| = max u (-u)`: the overflow-safe spelling of
  `log (1 + e^u)`. Both programs guard it with a test `u - 0 ≠ u - 0` that selects `u + 0`; on the
  extended reals nothing differs from itself, so the guard never fires (`softplus_guarded`).
  The halving is written as a product by `1/2` in one program and a quotient by `2` in the other:
  one number on every extended real (`div_two`).
-/
import Idealize.ShloMosaic.PureOps.Ideal
import Idealize.ShloMosaic.PureOps.Ideal.Laws
import Idealize.ShloMosaic.Lib.ValueIdx

noncomputable section

open scoped BigOperators

namespace Cert.MarginalSpec

open Idealize.ShloMosaic Idealize.ShloMosaic.ValueIdx

/-! ## The float words the two programs spell -/

/-- The word of `1.0` denotes the extended real `1`. -/
theorem ofBits_one : Ideal.ofBits .f32 0x3F800000#32 = 1 := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- A quotient by `2` is the product with `1/2`, on every extended real. -/
theorem div_two (a : EReal) : Ideal.div a (Ideal.ofBits .f32 0x40000000#32) = a * Ideal.ofBits .f32 0x3F000000#32 := by
  rw [ofBits_two, ofBits_half]
  exact Ideal.div_coe (by norm_num : (2 : ℝ) ≠ 0) a

/-! ## Softplus -/

/-- `log (1 + e^u)` in its overflow-safe spelling. -/
def softplus (u : EReal) : EReal := max u 0 + Ideal.log1p (Ideal.exp (-(max u (-u))))

/-- Nothing differs from itself: the comparison "not equal" of a value with itself is the bit `0`,
    whether spelt ordered or unordered. -/
theorem cmp_ne_self (p : CmpFPredicate) (hp : p = .one ∨ p = .une) (a : EReal) : Ideal.cmp p a a = 0#1 := by
  rcases hp with rfl | rfl <;> simp [Ideal.cmp]

/-- The guarded spelling both programs use — select `u + 0` where `u - 0 ≠ u - 0`, else
    `max u 0 + log1p (e^(-|u - 0|))` — is `softplus u`: the guard is never taken and `u - 0 = u`. -/
theorem softplus_guarded (p : CmpFPredicate) (hp : p = .one ∨ p = .une) (u : EReal) :
    Scalar.select (Ideal.cmp p (u - 0) (u - 0)) (u + 0)
        (max u 0 + Ideal.log1p (Ideal.exp (-(max (u - 0) (-(u - 0))))))
      = softplus u := by
  rw [cmp_ne_self p hp, select_zero, sub_zero]
  rfl

/-! ## One row's result, and the whole array -/

/-- The result for one row `xr` of `x`. -/
def rowval (xr : Fin 4096 → EReal) (V : Fin 64 → Fin 4096 → EReal) (W : Fin 64 → Fin 64 → EReal)
    (cc : Fin 64 → EReal) (bb : Fin 4096 → EReal) : EReal :=
  Ideal.exp (((∑ n : Fin 64, softplus ((∑ k : Fin 64, Ideal.logistic (∑ d : Fin 4096, xr d * V k d) * W n k) + cc n))
      + ∑ d : Fin 4096, xr d * bb d)
    - (∑ d : Fin 4096, xr d * xr d) * Ideal.ofBits .f32 0x3F000000#32)

/-- The result array `[16384, 1]` as one function of the five argument arrays: entry `(r, 0)` is
    `rowval` of row `r` of `x`. -/
def G (x : (⟨2, ![16384, 4096]⟩ : Shape).Idx → EReal) (V : (⟨2, ![64, 4096]⟩ : Shape).Idx → EReal)
    (W : (⟨2, ![64, 64]⟩ : Shape).Idx → EReal) (c : (⟨2, ![1, 64]⟩ : Shape).Idx → EReal)
    (b : (⟨2, ![1, 4096]⟩ : Shape).Idx → EReal) : (⟨2, ![16384, 1]⟩ : Shape).Idx → EReal :=
  fun i => rowval (fun d => x (ix2 (i 0) d)) (fun k d => V (ix2 k d)) (fun n k => W (ix2 n k))
    (fun n => c (ix2 (0 : Fin 1) n)) (fun d => b (ix2 (0 : Fin 1) d))

end Cert.MarginalSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.LibRowSum.lean ====
/-
  A row sum that keeps its axis, read at an entry, at the ideal instance (floats are the extended reals).

  `jnp.sum(v, axis=1, keepdims=True)` of an `[a, n]` array lowers, in a kernel, to a reduction over
  axis 1 into an `[a]` vector followed by a shape cast to the column `[a, 1]`. At the ideal instance
  the reduction is the plain finite sum over the reduced coordinate, and the cast only renames the
  index (row-major position `i` of `[a]` is position `i * 1 + 0` of `[a, 1]`):
      sum(v, axis=1, keepdims=True)[i, 0] = ∑ k : Fin n, v[i, k].
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.RowSum

open Idealize.ShloMosaic Idealize.ShloMosaic.ValueIdx

/-- An `[a]` vector cast to the column `[a, 1]` reads, at `(i, u)`, the operand at `i`: both have
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over axis 1 of an `[a, n]` array of extended reals, into `[a]`, at `i`: the sum over the
    column coordinate of row `i`. -/
theorem reduce_axis1_apply {a n : ℕ} {φ : FTy} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ k : Fin n, src (ix2 i k) := by
  refine (Ideal.multiReduction_add_single src acc h hφ hacc (ix1 i)).trans ?_
  refine Finset.sum_congr rfl fun k _ => congrArg src ?_
  funext b
  match b with
  | ⟨0, _⟩ => rfl
  | ⟨1, _⟩ => rfl

/-- The keepdims row sum at `(i, 0)`: `∑ k, v[i, k]`. -/
theorem rowsum_keepdims_apply {a n : ℕ} {φ : FTy} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (hc : (⟨1, ![a]⟩ : Shape).ShapeCasts ⟨2, ![a, 1]⟩)
    (i : Fin a) (u : Fin 1) :
    shapeCast ⟨2, ![a, 1]⟩ (multiReduction .add [1] ⟨1, ![a]⟩ src acc h hφ hacc) hc (ix2 i u)
      = ∑ k : Fin n, src (ix2 i k) :=
  (shapeCast_a_a1_apply _ hc i u).trans (reduce_axis1_apply src acc h hφ hacc i)

end Idealize.ShloMosaic.RowSum

end
-- ==== Proof.KernelRow.lean ====
/-
  The kernel body's arithmetic, read at one entry on the extended reals.

  At a grid point the body sees a `[1024, 4096]` block `v0` of rows of `x`, the whole `[4096, 64]`
  array `v2` (`V` transposed), the whole `[64, 64]` array `v7` (`W` transposed), the bias row `v10`
  and the row `v29` (`b`), and stores a `[1024, 1]` column. Entry `(p, 0)` of that column depends on
  row `p` of the block only:
      s k = ∑ d, v0[p, d] * v2[d, k]                  a matrix product into a zero accumulator,
      g k = logistic (s k),
      u n = (∑ k, g k * v7[k, n]) + v10[0, n]          a second matrix product, plus the bias row,
      y   = (∑ n, softplus (u n)) + (∑ d, v0[p, d] * v29[0, d]) - (∑ d, v0[p, d] * v0[p, d]) * (1/2),
  and the entry is `e^y`: `MarginalSpec.rowval` of row `p`, of the two transposed matrices read
  back transposed, and of the two rows. The narrowing of the matrix operands to bf16 is the identity
  on the extended reals. Each step below reads one vector operation at an entry.
-/
import proofs.«159196_j15917148799599_1_alg».proof.Proof.Gen.KernelIdeal.Skeleton
import proofs.«159196_j15917148799599_1_alg».proof.Proof.Spec
import proofs.«159196_j15917148799599_1_alg».proof.Proof.LibDot2
import proofs.«159196_j15917148799599_1_alg».proof.Proof.LibRowSum
import Idealize.ShloMosaic.Lib.ValueLayout

noncomputable section

open scoped BigOperators

namespace Cert.KernelIdeal.RowValue

open Cert.KernelIdeal Cert.KernelIdeal.Gen
open Idealize.ShloMosaic Idealize.ShloMosaic.ValueIdx Idealize.ShloMosaic.Dot2 Idealize.ShloMosaic.RowSum
open Cert.MarginalSpec

/-- The first product at `(p, k)`: row `p` of the block against column `k` of `Vᵀ`. -/
theorem layer1 (v0 : FVec Ideal S1024x4096 .f32) (v2 : FVec Ideal S4096x64 .bf16) (p : Fin 1024) (k : Fin 64) :
    matmul dot_S1024x4096_S4096x64_S1024x64_1_0_0_1_n_n none (truncf .bf16 v0 bitsLt_bf16_f32)
        (shapeCast S4096x64 v2 shapeCasts_S4096x64_S4096x64) (constant (F := Ideal) S1024x64 .f32 0x00000000#32) (ix2 p k)
      = ∑ d : Fin 4096, v0 (ix2 p d) * v2 (ix2 d k) := by
  rw [shapeCast_self]
  exact matmul_zero_mm_apply dot_S1024x4096_S4096x64_S1024x64_1_0_0_1_n_n_wf none (truncf .bf16 v0 bitsLt_bf16_f32) v2 p k

/-- The second product plus the bias at `(p, n)`, of any gate array `g`. -/
theorem layer2 (g : FVec Ideal S1024x64 .f32) (v7 : FVec Ideal S64x64 .bf16) (v10 : FVec Ideal S1x64 .f32)
    (p : Fin 1024) (n : Fin 64) :
    addf (matmul dot_S1024x64_S64x64_S1024x64_1_0_0_1_n_n none (truncf .bf16 g bitsLt_bf16_f32)
          (shapeCast S64x64 v7 shapeCasts_S64x64_S64x64) (constant (F := Ideal) S1024x64 .f32 0x00000000#32))
        (broadcastTo S1024x64 v10 broadcasts_S1x64_S1024x64) (ix2 p n)
      = (∑ k : Fin 64, g (ix2 p k) * v7 (ix2 k n)) + v10 (ix2 (0 : Fin 1) n) := by
  rw [shapeCast_self]
  show _ + _ = _
  rw [broadcastTo_1b_ab_apply]
  refine congrArg (· + v10 (ix2 (0 : Fin 1) n)) ?_
  exact matmul_zero_mm_apply dot_S1024x64_S64x64_S1024x64_1_0_0_1_n_n_wf none (truncf .bf16 g bitsLt_bf16_f32) v7 p n

/-- Softplus as the body spells it, of any pre-activation array `u`, at an entry: the guard
    `u - 0 ≠ u - 0` never fires, and `0 - |u - 0|` is `-|u|`. -/
theorem softplus_at (u : FVec Ideal S1024x64 .f32) (j : S1024x64.Idx) :
    select (cmpf .one (subf u (broadcast S1024x64 (Scalar.ofBits .f32 0x00000000#32)))
              (subf u (broadcast S1024x64 (Scalar.ofBits .f32 0x00000000#32))))
        (addf u (broadcast S1024x64 (Scalar.ofBits .f32 0x00000000#32)))
        (addf (maximumf u (broadcast S1024x64 (Scalar.ofBits .f32 0x00000000#32)))
          (log1p (exp (subf (broadcast S1024x64 (Scalar.ofBits .f32 0x00000000#32))
            (absf (subf u (broadcast S1024x64 (Scalar.ofBits .f32 0x00000000#32)))))))) j
      = softplus (u j) := by
  show Scalar.select (Ideal.cmp .one (u j - Ideal.ofBits .f32 0x00000000#32) (u j - Ideal.ofBits .f32 0x00000000#32))
      (u j + Ideal.ofBits .f32 0x00000000#32)
      (max (u j) (Ideal.ofBits .f32 0x00000000#32) + Ideal.log1p (Ideal.exp (Ideal.ofBits .f32 0x00000000#32
        - max (u j - Ideal.ofBits .f32 0x00000000#32) (-(u j - Ideal.ofBits .f32 0x00000000#32))))) = _
  rw [Ideal.ofBits_zero_f32, zero_sub]
  exact softplus_guarded .one (Or.inl rfl) (u j)

/-- The body's column at `(p, 0)` is `rowval` of row `p` of the block. -/
theorem payload_at (v0 : FVec Ideal S1024x4096 .f32) (v2 : FVec Ideal S4096x64 .bf16) (v7 : FVec Ideal S64x64 .bf16)
    (v10 : FVec Ideal S1x64 .f32) (v29 : FVec Ideal S1x4096 .f32) (p : Fin 1024) :
    k0_pay1 (F := Ideal) (k0_pay2 (F := Ideal) v0 v2 v7 v10 v29) (ix2 p (0 : Fin 1))
      = rowval (fun d => v0 (ix2 p d)) (fun k d => v2 (ix2 d k)) (fun n k => v7 (ix2 k n))
          (fun n => v10 (ix2 (0 : Fin 1) n)) (fun d => v29 (ix2 (0 : Fin 1) d)) := by
  unfold k0_pay1 k0_pay2 rowval
  dsimp only
  refine congrArg Ideal.exp ?_
  show (_ + _) - _ * _ = _
  refine congrArg₂ (· - ·) (congrArg₂ (· + ·) ?_ ?_) (congrArg (· * Ideal.ofBits .f32 0x3F000000#32) ?_)
  · -- the softplus terms of row p
    refine (rowsum_keepdims_apply _ _ _ _ _ _ p 0).trans (Finset.sum_congr rfl fun n _ => ?_)
    refine (softplus_at _ (ix2 p n)).trans (congrArg softplus ?_)
    refine (layer2 _ v7 v10 p n).trans ?_
    refine congrArg (· + v10 (ix2 (0 : Fin 1) n)) (Finset.sum_congr rfl fun k _ => ?_)
    exact congrArg (fun s => Ideal.logistic s * v7 (ix2 k n)) (layer1 v0 v2 p k)
  · -- the linear term
    refine (rowsum_keepdims_apply _ _ _ _ _ _ p 0).trans (Finset.sum_congr rfl fun d _ => ?_)
    show v0 (ix2 p d) * _ = _
    rw [broadcastTo_1b_ab_apply]
  · -- the squared norm
    exact rowsum_keepdims_apply _ _ _ _ _ _ p 0

end Cert.KernelIdeal.RowValue

end
-- ==== Proof.KernelArray.lean ====
/-
  From blocks to the array: after the run the kernel's result array is the specification `G` of the
  argument arrays.

  The grid has 16 points; point `t` sees rows `1024 t … 1024 t + 1023` of `x` (window 0 moves with
  the grid), the whole of the two transposed matrices, of the bias row and of `b` (windows 1–4 sit at
  block 0), and writes rows `1024 t … 1024 t + 1023` of the `[16384, 1]` result (window 5 moves with
  the grid). Before the region the host transposes `V` and `W` (and narrows them to bf16, the
  identity on the extended reals): the arrays windows 1 and 2 read are `Vᵀ` and `Wᵀ`. So what point
  `t` writes back is block `t` of `G` (`flushed_eq`), the 16 blocks cover the result array
  (`cover`), and the array ends holding `G` (`final`).
-/
import proofs.«159196_j15917148799599_1_alg».proof.Proof.Gen.KernelIdeal.Value
import proofs.«159196_j15917148799599_1_alg».proof.Proof.KernelRow

set_option maxRecDepth 16384

noncomputable section

open scoped BigOperators

namespace Cert.KernelIdeal.ArrayValue

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.MarginalSpec

variable (m : (ℓ : Loc nD τ sig) → Buf (Elt Ideal) ℓ) (ρ : Dev nD → PrngReg)

/-! ## The arrays the region finds -/

/-- Window 1's array: `V` transposed (and narrowed, which changes nothing here). -/
theorem V_main_v1 (c : Dev nD) :
    @Eq (FVec Ideal S4096x64 .bf16) (V m c main_v1)
      (truncf .bf16 (transpose S4096x64 [1, 0] (m ((c : Thread nD τ).loc main_arg1)) transposes_S64x4096_S4096x64_1_0) bitsLt_bf16_f32) := by
  dsimp only [Gen.V, Gen.hostOps0]; after_results

/-- Window 2's array: `W` transposed (and narrowed). -/
theorem V_main_v3 (c : Dev nD) :
    @Eq (FVec Ideal S64x64 .bf16) (V m c main_v3)
      (truncf .bf16 (transpose S64x64 [1, 0] (m ((c : Thread nD τ).loc main_arg2)) transposes_S64x64_S64x64_1_0) bitsLt_bf16_f32) := by
  dsimp only [Gen.V, Gen.hostOps0]; after_results

/-! ## The blocks a grid point sees -/

theorem hz : (![0, 0] : Fin 2 → Nat) = fun _ => 0 := funext fun a => by fin_cases a <;> rfl

/-- The grid has 16 points. -/
theorem t_lt (t : Fin cfg0.N) : t.val < 16 := lt_of_lt_of_eq t.isLt N_0

/-- Row `p` of point `t`'s block is row `1024 t + p` of the array. -/
def row (t : Fin cfg0.N) (p : Fin 1024) : Fin 16384 :=
  ⟨t.val * 1024 + p.val, by have := t_lt t; have := p.isLt; omega⟩

/-- The index maps, decided over the grid: windows 0 and 5 sit at block row `t`, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at `t`: rows `1024 t …` of `x`. -/
theorem read0 (c : Dev nD) (t : Fin cfg0.N) (p : Fin 1024) (d : Fin 4096) :
    iblk m c 0 t (ix2 p d) = m ((c : Thread nD τ).loc main_arg0) (ix2 (row t p) d) := by
  show V m c main_arg0 (((cfg0.win 0).blk t).view.emb (ix2 p d)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 4096 + 1 * d.val = d.val; omega

/-- Window 1's block is all of `Vᵀ`: entry `(d, k)` is `V[k, d]`. -/
theorem read1 (c : Dev nD) (t : Fin cfg0.N) (d : Fin 4096) (k : Fin 64) :
    iblk m c 1 t (ix2 d k) = m ((c : Thread nD τ).loc main_arg1) (ix2 k d) := by
  show V m c main_v1 (((cfg0.win 1).blk t).view.emb (ix2 d k)) = _
  have e : ((cfg0.win 1).blk t).view.emb (ix2 d k) = ix2 d k := by
    obtain ⟨-, -, e0, e1, -⟩ := idx_facts t
    funext a; apply Fin.ext
    match a with
    | ⟨0, _⟩ => show win0_1.index t (0 : Fin 2) * 4096 + 1 * d.val = d.val; omega
    | ⟨1, _⟩ => show win0_1.index t (1 : Fin 2) * 64 + 1 * k.val = k.val; omega
  rw [e]
  refine (congrFun (V_main_v1 m c) (ix2 d k)).trans ?_
  exact transpose_ix2_apply _ _ d k

/-- Window 2's block is all of `Wᵀ`: entry `(k, n)` is `W[n, k]`. -/
theorem read2 (c : Dev nD) (t : Fin cfg0.N) (k n : Fin 64) :
    iblk m c 2 t (ix2 k n) = m ((c : Thread nD τ).loc main_arg2) (ix2 n k) := by
  show V m c main_v3 (((cfg0.win 2).blk t).view.emb (ix2 k n)) = _
  have e : ((cfg0.win 2).blk t).view.emb (ix2 k n) = ix2 k n := by
    obtain ⟨-, -, -, -, e0, e1, -⟩ := idx_facts t
    funext a; apply Fin.ext
    match a with
    | ⟨0, _⟩ => show win0_2.index t (0 : Fin 2) * 64 + 1 * k.val = k.val; omega
    | ⟨1, _⟩ => show win0_2.index t (1 : Fin 2) * 64 + 1 * n.val = n.val; omega
  rw [e]
  refine (congrFun (V_main_v3 m c) (ix2 k n)).trans ?_
  exact transpose_ix2_apply _ _ k n

/-- Window 3's block is the bias row. -/
theorem read3 (c : Dev nD) (t : Fin cfg0.N) (n : Fin 64) :
    iblk m c 3 t (ix2 (0 : Fin 1) n) = m ((c : Thread nD τ).loc main_arg3) (ix2 (0 : Fin 1) n) := by
  show V m c main_arg3 (((cfg0.win 3).blk t).view.emb (ix2 (0 : Fin 1) n)) = _
  rw [V_main_arg3]
  refine congrArg (m ((c : Thread nD τ).loc main_arg3)) ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 64 + 1 * n.val = n.val; omega

/-- Window 4's block is the row `b`. -/
theorem read4 (c : Dev nD) (t : Fin cfg0.N) (d : Fin 4096) :
    iblk m c 4 t (ix2 (0 : Fin 1) d) = m ((c : Thread nD τ).loc main_arg4) (ix2 (0 : Fin 1) d) := by
  show V m c main_arg4 (((cfg0.win 4).blk t).view.emb (ix2 (0 : Fin 1) d)) = _
  rw [V_main_arg4]
  refine congrArg (m ((c : Thread nD τ).loc main_arg4)) ?_
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 4096 + 1 * d.val = d.val; omega

/-- Row `p` of window 5's block at `t` is row `1024 t + p` of the result array. -/
theorem emb5 (t : Fin cfg0.N) (p : Fin 1024) :
    ((cfg0.win 5).blk t).view.emb (ix2 p (0 : Fin 1)) = ix2 (row t p) (0 : Fin 1) := by
  obtain ⟨-, -, -, -, -, -, -, -, -, -, e0, e1⟩ := idx_facts t
  funext a; apply Fin.ext
  match a with
  | ⟨0, _⟩ => show win0_5.index t (0 : Fin 2) * 1024 + 1 * p.val = t.val * 1024 + p.val; omega
  | ⟨1, _⟩ => show win0_5.index t (1 : Fin 2) * 1 + 1 * 0 = 0; omega

/-! ## What a point writes back, and the array after the run -/

/-- The body's column on blocks that are restrictions of the argument arrays (`h0` … `h4`), at row
    `p`, is the specification at the array's row `r`. -/
theorem block_value (X0 : FVec Ideal S1024x4096 .f32) (X1 : FVec Ideal S4096x64 .bf16) (X2 : FVec Ideal S64x64 .bf16)
    (X3 : FVec Ideal S1x64 .f32) (X4 : FVec Ideal S1x4096 .f32)
    (a0 : FVec Ideal S16384x4096 .f32) (a1 : FVec Ideal S64x4096 .f32) (a2 : FVec Ideal S64x64 .f32)
    (a3 : FVec Ideal S1x64 .f32) (a4 : FVec Ideal S1x4096 .f32) (p : Fin 1024) (r : Fin 16384)
    (h0 : ∀ d : Fin 4096, X0 (ix2 p d) = a0 (ix2 r d))
    (h1 : ∀ (d : Fin 4096) (k : Fin 64), X1 (ix2 d k) = a1 (ix2 k d))
    (h2 : ∀ k n : Fin 64, X2 (ix2 k n) = a2 (ix2 n k))
    (h3 : ∀ n : Fin 64, X3 (ix2 (0 : Fin 1) n) = a3 (ix2 (0 : Fin 1) n))
    (h4 : ∀ d : Fin 4096, X4 (ix2 (0 : Fin 1) d) = a4 (ix2 (0 : Fin 1) d)) :
    k0_pay1 (F := Ideal) (k0_pay2 (F := Ideal) X0 X1 X2 X3 X4) (ix2 p (0 : Fin 1))
      = G a0 a1 a2 a3 a4 (ix2 r (0 : Fin 1)) := by
  rw [RowValue.payload_at]
  unfold G
  simp only [h0, h1, h2, h3, h4]

/-- What point `t` writes back is block `t` of `G` of the argument arrays. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  unfold out0_5
  rw [View.canon_unit_zero hz]
  simp only [View.ld_unit_zero (S := S1024x4096) hz, View.ld_unit_zero (S := S4096x64) hz, View.ld_unit_zero (S := S64x64) hz,
    View.ld_unit_zero (S := S1x64) hz, View.ld_unit_zero (S := S1x4096) hz]
  funext j
  obtain ⟨p, z, rfl⟩ : ∃ (p : Fin 1024) (z : Fin 1), j = ix2 p z := ⟨j 0, j 1, eq_ix2 j⟩
  obtain rfl : z = 0 := Subsingleton.elim _ _
  show k0_pay1 (F := Ideal) (k0_pay2 (F := Ideal) (iblk m c 0 t) (iblk m c 1 t) (iblk m c 2 t) (iblk m c 3 t) (iblk m c 4 t)) (ix2 p (0 : Fin 1))
    = G (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix2 p (0 : Fin 1)))
  rw [emb5]
  exact block_value (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) p (row t p)
    (read0 m c t p) (read1 m c t) (read2 m c t) (read3 m c t) (read4 m c t)

/-- An index of the result array is in point `t`'s block iff each coordinate is in the block's range. -/
theorem mem_blk (t : Fin cfg0.N) (i : S16384x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v4).slice (win0_5.rect t)).set ↔ _
  rw [View.set_slice_whole, Rect.mem_set_unit]
  exact Iff.rfl

/-- The 16 blocks cover the result array: row `r` lies in block `r / 1024`. -/
theorem cover (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  have hN : cfg0.N = 16 := N_0
  refine ⟨⟨(i 0).val / 1024, by rw [hN]; omega⟩, flush0_5 _, ?_⟩
  obtain ⟨-, -, -, -, -, -, -, -, -, -, e0, e1⟩ := idx_facts ⟨(i 0).val / 1024, by rw [hN]; omega⟩
  rw [mem_blk]
  intro a
  match a with
  | ⟨0, _⟩ =>
    show win0_5.index _ (0 : Fin 2) * 1024 ≤ (i 0).val ∧ (i 0).val < win0_5.index _ (0 : Fin 2) * 1024 + 1024
    rw [e0]; show (i 0).val / 1024 * 1024 ≤ (i 0).val ∧ (i 0).val < (i 0).val / 1024 * 1024 + 1024; omega
  | ⟨1, _⟩ =>
    show win0_5.index _ (1 : Fin 2) * 1 ≤ (i 1).val ∧ (i 1).val < win0_5.index _ (1 : Fin 2) * 1 + 1
    rw [e1]; omega

/-- The result array after the run is `G` of the argument arrays. -/
theorem final (c : Dev nD) :
    (dats m 0 c).arrAt 5 cfg0.N
      = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The kernel's run: it terminates with the result array at `G` of the arguments, the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference, read one entry at a time on the extended reals, is the specification `G`.

  The reference is a chain of whole-array host operations: `x · Vᵀ` (a dot product contracting
  the 4096-axis of both operands), the logistic function spelt `1 / (1 + e^(-s))`, the product with
  `Wᵀ` (contracting the 64-axis of both), the bias row broadcast over the rows, softplus in its
  guarded overflow-safe spelling, the row sums, the product `x · bᵀ`, the row sums of squares halved
  by a quotient by `2`, and the exponential. Each layer is read here at an entry `(r, k)` from the
  layer before it, down to entries of the argument arrays; the last step assembles row `r`'s result.
-/
import proofs.«159196_j15917148799599_1_alg».proof.Proof.Gen.ReferenceIdeal.Read
import proofs.«159196_j15917148799599_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.MarginalSpec

variable (x0 : (⟨S16384x4096, .f32⟩ : BufTy).Contents (Elt Ideal)) (x1 : (⟨S64x4096, .f32⟩ : BufTy).Contents (Elt Ideal))
  (x2 : (⟨S64x64, .f32⟩ : BufTy).Contents (Elt Ideal)) (x3 : (⟨S1x64, .f32⟩ : BufTy).Contents (Elt Ideal))
  (x4 : (⟨S1x4096, .f32⟩ : BufTy).Contents (Elt Ideal))

/-- The first layer's pre-activation at `(r, k)`: row `r` of `x` against row `k` of `V`. -/
theorem layer1 (r : Fin 16384) (k : Fin 64) :
    val_main_v0 (F := Ideal) x0 x1 (ix2 r k) = ∑ d : Fin 4096, x0 (ix2 r d) * x1 (ix2 k d) := by
  rw [val_main_v0_apply]
  refine Finset.sum_congr rfl fun d _ => ?_
  have el : lidx_main_v0 (ix2 r k) d = ix2 r d :=
    funext fun a => Fin.ext (by match a with | ⟨0, _⟩ => rfl | ⟨1, _⟩ => rfl)
  have er : ridx_main_v0 (ix2 r k) d = ix2 k d :=
    funext fun a => Fin.ext (by match a with | ⟨0, _⟩ => rfl | ⟨1, _⟩ => rfl)
  rw [el, er]

/-- The gate at `(r, k)`: `1 / (1 + e^(-s))` is the logistic function of the pre-activation. -/
theorem gate (r : Fin 16384) (k : Fin 64) :
    val_main_v6 (F := Ideal) x0 x1 (ix2 r k) = Ideal.logistic (∑ d : Fin 4096, x0 (ix2 r d) * x1 (ix2 k d)) := by
  rw [val_main_v6_apply, val_main_v5_apply, val_main_cst_0_apply, val_main_v4_apply, val_main_v3_apply,
    val_main_cst_apply, val_main_v2_apply, val_main_v1_apply, layer1]
  show Ideal.div (Ideal.ofBits .f32 0x3F800000#32) (Ideal.ofBits .f32 0x3F800000#32 + Ideal.exp (-_)) = _
  rw [ofBits_one]
  rfl

/-- The second layer's pre-activation at `(r, n)`: the gates of row `r` against row `n` of `W`,
    plus the bias `c n`. -/
theorem layer2 (r : Fin 16384) (n : Fin 64) :
    val_main_v9 (F := Ideal) x0 x1 x2 x3 (ix2 r n)
      = (∑ k : Fin 64, Ideal.logistic (∑ d : Fin 4096, x0 (ix2 r d) * x1 (ix2 k d)) * x2 (ix2 n k))
        + x3 (ix2 (0 : Fin 1) n) := by
  rw [val_main_v9_apply, val_main_v7_apply, val_main_v8_apply]
  have e8 : idx_main_v8 (ix2 r n) = ix2 (0 : Fin 1) n :=
    funext fun a => Fin.ext (by match a with | ⟨0, _⟩ => rfl | ⟨1, _⟩ => rfl)
  rw [e8]
  show (∑ k : Fin 64, _) + _ = _
  refine congrArg (· + x3 (ix2 (0 : Fin 1) n)) (Finset.sum_congr rfl fun k _ => ?_)
  have el : lidx_main_v7 (ix2 r n) k = ix2 r k :=
    funext fun a => Fin.ext (by match a with | ⟨0, _⟩ => rfl | ⟨1, _⟩ => rfl)
  have er : ridx_main_v7 (ix2 r n) k = ix2 n k :=
    funext fun a => Fin.ext (by match a with | ⟨0, _⟩ => rfl | ⟨1, _⟩ => rfl)
  rw [el, er, gate]

/-- Softplus of the second layer at `(r, n)`: the guard never fires. -/
theorem softplus_at (r : Fin 16384) (n : Fin 64) :
    val_main_v10 (F := Ideal) x0 x1 x2 x3 (ix2 r n)
      = softplus ((∑ k : Fin 64, Ideal.logistic (∑ d : Fin 4096, x0 (ix2 r d) * x1 (ix2 k d)) * x2 (ix2 n k))
        + x3 (ix2 (0 : Fin 1) n)) := by
  rw [val_main_v10_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, layer2]
  generalize (∑ k : Fin 64, Ideal.logistic (∑ d : Fin 4096, x0 (ix2 r d) * x1 (ix2 k d)) * x2 (ix2 n k))
    + x3 (ix2 (0 : Fin 1) n) = u
  rw [show FloatOps.ofBits (F := Ideal) .f32 0x00000000#32 = (0 : EReal) from Ideal.ofBits_zero_f32]
  exact softplus_guarded .une (Or.inr rfl) u

/-- The sum of the softplus terms of row `r`. -/
theorem softplus_sum (r : Fin 16384) :
    val_main_v12 (F := Ideal) x0 x1 x2 x3 (ix2 r (0 : Fin 1))
      = ∑ n : Fin 64, softplus ((∑ k : Fin 64, Ideal.logistic (∑ d : Fin 4096, x0 (ix2 r d) * x1 (ix2 k d)) * x2 (ix2 n k))
        + x3 (ix2 (0 : Fin 1) n)) := by
  rw [val_main_v12_apply, val_main_v11_apply, val_main_cst_1_apply]
  show Ideal.ofBits .f32 0x00000000#32 + _ = _
  rw [Ideal.ofBits_zero_f32, zero_add]
  refine Finset.sum_congr rfl fun n _ => ?_
  have e : idx_main_v11 (idx_main_v12 (ix2 r (0 : Fin 1))) n = ix2 r n :=
    funext fun a => Fin.ext (by match a with | ⟨0, _⟩ => rfl | ⟨1, _⟩ => rfl)
  rw [e, softplus_at]

/-- The linear term of row `r`: row `r` of `x` against the row `b`. -/
theorem linear_at (r : Fin 16384) :
    val_main_v13 (F := Ideal) x0 x4 (ix2 r (0 : Fin 1)) = ∑ d : Fin 4096, x0 (ix2 r d) * x4 (ix2 (0 : Fin 1) d) := by
  rw [val_main_v13_apply]
  refine Finset.sum_congr rfl fun d _ => ?_
  have el : lidx_main_v13 (ix2 r (0 : Fin 1)) d = ix2 r d :=
    funext fun a => Fin.ext (by match a with | ⟨0, _⟩ => rfl | ⟨1, _⟩ => rfl)
  have er : ridx_main_v13 (ix2 r (0 : Fin 1)) d = ix2 (0 : Fin 1) d :=
    funext fun a => Fin.ext (by match a with | ⟨0, _⟩ => rfl | ⟨1, _⟩ => rfl)
  rw [el, er]

/-- Half the squared norm of row `r`: the quotient by `2` is the product with `1/2`. -/
theorem halfnorm_at (r : Fin 16384) :
    val_main_v19 (F := Ideal) x0 (ix2 r (0 : Fin 1))
      = (∑ d : Fin 4096, x0 (ix2 r d) * x0 (ix2 r d)) * Ideal.ofBits .f32 0x3F000000#32 := by
  rw [val_main_v19_apply, val_main_v17_apply, val_main_v18_apply, val_main_cst_3_apply, val_main_v16_apply,
    val_main_cst_2_apply]
  show Ideal.div (Ideal.ofBits .f32 0x00000000#32 + _) (Ideal.ofBits .f32 0x40000000#32) = _
  rw [div_two, Ideal.ofBits_zero_f32, zero_add]
  refine congrArg (· * Ideal.ofBits .f32 0x3F000000#32) (Finset.sum_congr rfl fun d _ => ?_)
  have e : idx_main_v16 (idx_main_v17 (ix2 r (0 : Fin 1))) d = ix2 r d :=
    funext fun a => Fin.ext (by match a with | ⟨0, _⟩ => rfl | ⟨1, _⟩ => rfl)
  rw [e, val_main_v15_apply]
  rfl

/-- The reference's result array is the specification of its arguments. -/
theorem result_eq : val_main_v21 (F := Ideal) x0 x1 x2 x3 x4 = G x0 x1 x2 x3 x4 := by
  funext i
  obtain ⟨r, z, rfl⟩ : ∃ (r : Fin 16384) (z : Fin 1), i = ix2 r z := ⟨i 0, i 1, eq_ix2 i⟩
  obtain rfl : z = 0 := Subsingleton.elim _ _
  rw [val_main_v21_apply, val_main_v20_apply, val_main_v14_apply, softplus_sum, linear_at, halfnorm_at]
  rfl

end Cert.ReferenceIdeal.RefValue

end
-- ==== Proof.lean ====
/-
  The kernel and its reference compute, for every row `x_r` of `x`,
      exp( ∑_n softplus( (∑_k logistic(∑_d x_r[d] · V[k,d]) · W[n,k]) + c[n] )  +  ∑_d x_r[d] · b[d]  −  ½ ∑_d x_r[d]² ),
  the kernel 1024 rows at a time over a grid of 16 points, with `V` and `W` transposed on the host
  beforehand and its two matrix products taken on operands narrowed to bf16; the reference by
  whole-array host operations. On the extended reals the narrowing is the identity, a matrix product
  into a zero accumulator and the host's dot product are the same finite sums, the kernel's
  `logistic` is the reference's `1 / (1 + e^(-s))`, both spell softplus the same guarded way, and
  the kernel's product with `0.5` is the reference's quotient by `2`. So both result arrays are the
  one function `MarginalSpec.G` of the arguments: Proof/KernelArray.lean for the kernel (its body read
  at an entry in Proof/KernelRow.lean), Proof/RefValue.lean for the reference. No law used needs the
  inputs finite, so the precondition is never opened. The idealization rewrote nothing, so
  `preserves` has nothing to state.
-/
import proofs.«159196_j15917148799599_1_alg».proof.Defs
import proofs.«159196_j15917148799599_1_alg».proof.Proof.Gen.Kernel
import proofs.«159196_j15917148799599_1_alg».proof.Proof.Gen.Kernel.Skeleton
import proofs.«159196_j15917148799599_1_alg».proof.Proof.Gen.Kernel.Launch
import proofs.«159196_j15917148799599_1_alg».proof.Proof.Gen.Kernel.Points
import proofs.«159196_j15917148799599_1_alg».proof.Proof.Gen.Kernel.Frame
import proofs.«159196_j15917148799599_1_alg».proof.Proof.Gen.KernelIdeal
import proofs.«159196_j15917148799599_1_alg».proof.Proof.Gen.KernelIdeal.Skeleton
import proofs.«159196_j15917148799599_1_alg».proof.Proof.Gen.KernelIdeal.Launch
import proofs.«159196_j15917148799599_1_alg».proof.Proof.Gen.KernelIdeal.Points
import proofs.«159196_j15917148799599_1_alg».proof.Proof.Gen.KernelIdeal.Frame
import proofs.«159196_j15917148799599_1_alg».proof.Proof.Gen.ReferenceIdeal
import proofs.«159196_j15917148799599_1_alg».proof.Proof.Gen.KernelIdeal.Value
import proofs.«159196_j15917148799599_1_alg».proof.Proof.Gen.ReferenceIdeal.Run
import proofs.«159196_j15917148799599_1_alg».proof.Proof.Gen.ReferenceIdeal.Read
import proofs.«159196_j15917148799599_1_alg».proof.Proof.Gen.Pre_finite_inputs
import proofs.«159196_j15917148799599_1_alg».proof.Proof.KernelArray
import proofs.«159196_j15917148799599_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at
    `MarginalSpec.G` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
